-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x4096 .f32) (main_arg5 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x2048x1024 .f32) (main_arg1 : FVec F S8 .f32) (main_arg2 : FVec F S4096x8 .f32) (main_arg3 : FVec F S4096 .f32) (main_arg4 : FVec F S1024x4096 .f32) (main_arg5 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8x2048x1024 : Shape := ⟨3, ![8, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S8x2048x8 : Shape := ⟨3, ![8, 2048, 8]⟩
abbrev S16384x8 : Shape := ⟨2, ![16384, 8]⟩
abbrev S1x8 : Shape := ⟨2, ![1, 8]⟩
abbrev S1x4096 : Shape := ⟨2, ![1, 4096]⟩
abbrev S1x1024 : Shape := ⟨2, ![1, 1024]⟩
abbrev S16384x1024 : Shape := ⟨2, ![16384, 1024]⟩
abbrev S512x8 : Shape := ⟨2, ![512, 8]⟩
abbrev S512x1024 : Shape := ⟨2, ![512, 1024]⟩
abbrev S512x4096 : Shape := ⟨2, ![512, 4096]⟩

abbrev nBuf : Space → Nat
  | .hbm => 16
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S8x2048x8, .f32⟩
  | .hbm, ⟨7, _⟩ => ⟨S16384x8, .f32⟩
  | .hbm, ⟨8, _⟩ => ⟨S8, .f32⟩
  | .hbm, ⟨9, _⟩ => ⟨S1x8, .f32⟩
  | .hbm, ⟨10, _⟩ => ⟨S4096x8, .bf16⟩
  | .hbm, ⟨11, _⟩ => ⟨S1024x4096, .bf16⟩
  | .hbm, ⟨12, _⟩ => ⟨S1x4096, .f32⟩
  | .hbm, ⟨13, _⟩ => ⟨S1x1024, .f32⟩
  | .hbm, ⟨14, _⟩ => ⟨S16384x1024, .f32⟩
  | .hbm, ⟨15, _⟩ => ⟨S8x2048x1024, .f32⟩
  | .local _ .vmem, ⟨0, _⟩ => ⟨S512x8, .f32⟩
  | .local _ .vmem, ⟨1, _⟩ => ⟨S512x8, .f32⟩
  | .local _ .vmem, ⟨2, _⟩ => ⟨S4096x8, .bf16⟩
  | .local _ .vmem, ⟨3, _⟩ => ⟨S1x4096, .f32⟩
  | .local _ .vmem, ⟨4, _⟩ => ⟨S1024x4096, .bf16⟩
  | .local _ .vmem, ⟨5, _⟩ => ⟨S1x1024, .f32⟩
  | .local _ .vmem, ⟨6, _⟩ => ⟨S1x8, .f32⟩
  | .local _ .vmem, ⟨7, _⟩ => ⟨S512x1024, .f32⟩
  | .local _ .vmem, ⟨8, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S8x2048x1024_S8x2048x8_0_0_0 : S8x2048x1024.Slices ![0, 0, 0] S8x2048x8
  shapeCasts_S8x2048x8_S16384x8 : S8x2048x8.ShapeCasts S16384x8
  shapeCasts_S8_S1x8 : S8.ShapeCasts S1x8
  bitsLt_bf16_f32 : FTy.bits .bf16 < FTy.bits .f32
  shapeCasts_S4096_S1x4096 : S4096.ShapeCasts S1x4096
  shapeCasts_S1024_S1x1024 : S1024.ShapeCasts S1x1024
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S16384x1024_S8x2048x1024 : S16384x1024.ShapeCasts S8x2048x1024
  dot_S512x8_S4096x8_S512x4096_1_1_0_0_n_n_wf : DotDims.WF S512x8 S4096x8 S512x4096 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S16384x8.size a
  hwx0_0 : ∀ i : grid0.Coords, EltTy.bits .f32 = 32 ∨ (Rect.block (s := S16384x8) S512x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x8.size a ≤ S4096x8.size a
  hwx0_1 : ∀ i : grid0.Coords, EltTy.bits .bf16 = 32 ∨ (Rect.block (s := S4096x8) S4096x8.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8.size a ≤ S1x8.size a
  hwx0_5 : ∀ i : grid0.Coords, EltTy.bits .f32 = 32 ∨ (Rect.block (s := S1x8) S1x8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .f32 = 32 ∨ (Rect.block (s := S16384x1024) S512x1024.size (cc0_transform_6 i) (hinb0_6 i)).WholeWords (EltTy.packing .f32)

variable [Facts₀]

def dot_S512x8_S4096x8_S512x4096_1_1_0_0_n_n : DotDims S512x8 S4096x8 S512x4096 where
  lhsContracting := [1]
  rhsContracting := [1]
  lhsNonContracting := [0]
  rhsNonContracting := [0]
  lhsBatch := []
  rhsBatch := []
  wf := dot_S512x8_S4096x8_S512x4096_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v1) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S8x2048x8 : Shape := ⟨3, ![8, 2048, 8]⟩
abbrev S1x1x8 : Shape := ⟨3, ![1, 1, 8]⟩
abbrev S8x2048x4096 : Shape := ⟨3, ![8, 2048, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S8x2048x8, .f32⟩
  | .hbm, ⟨7, _⟩ => ⟨S8x2048x8, .f32⟩
  | .hbm, ⟨8, _⟩ => ⟨S8, .f32⟩
  | .hbm, ⟨9, _⟩ => ⟨S1x1x8, .f32⟩
  | .hbm, ⟨10, _⟩ => ⟨S8x2048x8, .f32⟩
  | .hbm, ⟨11, _⟩ => ⟨S8x2048x8, .f32⟩
  | .hbm, ⟨12, _⟩ => ⟨S8x2048x4096, .f32⟩
  | .hbm, ⟨13, _⟩ => ⟨S1x1x4096, .f32⟩
  | .hbm, ⟨14, _⟩ => ⟨S8x2048x4096, .f32⟩
  | .hbm, ⟨15, _⟩ => ⟨S8x2048x4096, .f32⟩
  | .hbm, ⟨16, _⟩ => ⟨S_, .f32⟩
  | .hbm, ⟨17, _⟩ => ⟨S8x2048x4096, .f32⟩
  | .hbm, ⟨18, _⟩ => ⟨S8x2048x4096, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S8x2048x1024_S8x2048x8_0_0_0 : S8x2048x1024.Slices ![0, 0, 0] S8x2048x8
  bcast_S8_S1x1x8_2 : S8.BroadcastsInDim S1x1x8 (![2] : Fin 1 → Fin S1x1x8.rank)
  bcast_S1x1x8_S8x2048x8_0_1_2 : S1x1x8.BroadcastsInDim S8x2048x8 (![0, 1, 2] : Fin 3 → Fin S8x2048x8.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  dot_S8x2048x8_S4096x8_S8x2048x4096_2_1_01_0_n_n_wf : DotDims.WF S8x2048x8 S4096x8 S8x2048x4096 [2] [1] [0, 1] [0] [] []
  dot_S8x2048x4096_S1024x4096_S8x2048x1024_2_1_01_0_n_n_wf : DotDims.WF S8x2048x4096 S1024x4096 S8x2048x1024 [2] [1] [0, 1] [0] [] []

variable [Facts₀]

def dot_S8x2048x8_S4096x8_S8x2048x4096_2_1_01_0_n_n : DotDims S8x2048x8 S4096x8 S8x2048x4096 where
  lhsContracting := [2]
  rhsContracting := [1]
  lhsNonContracting := [0, 1]
  rhsNonContracting := [0]
  lhsBatch := []
  rhsBatch := []
  wf := dot_S8x2048x8_S4096x8_S8x2048x4096_2_1_01_0_n_n_wf
def dot_S8x2048x4096_S1024x4096_S8x2048x1024_2_1_01_0_n_n : DotDims S8x2048x4096 S1024x4096 S8x2048x1024 where
  lhsContracting := [2]
  rhsContracting := [1]
  lhsNonContracting := [0, 1]
  rhsNonContracting := [0]
  lhsBatch := []
  rhsBatch := []
  wf := dot_S8x2048x4096_S1024x4096_S8x2048x1024_2_1_01_0_n_n_wf

class Facts : Prop extends Facts₀ where

variable [Facts]
-- ==== Proof.Spec.lean ====
/-
  The function both programs compute. A position of the input carries a row `u` of eight reals (its first eight
  channels); with the angles `θ`, the features are `cos u_q · cos θ_q`, the hidden layer is
  `h_f = max (Σ_q feature_q · W1[f, q] + b1[f]) 0` over 4096 units, and the output is
  `Σ_f h_f · W2[e, f] + b2[e]` over 1024 channels. Everything is read on the extended reals, where the two
  sums are finite sums in a commutative monoid: no order, grouping or tiling of them matters, and nothing
  here needs the entries to be finite. The zero the hidden layer is clamped at is kept as the float word
  both programs print, so it is never evaluated.
-/
import Idealize.ShloMosaic.PureOps.Ideal
import Idealize.ShloMosaic.Lib.ValueIdx

noncomputable section

namespace Cert.CosMlp

open Idealize.ShloMosaic Idealize.ShloMosaic.ValueIdx

/-- The shapes of the six arguments and of the result. -/
abbrev XS : Shape := ⟨3, ![8, 2048, 1024]⟩
abbrev AngS : Shape := ⟨1, ![8]⟩
abbrev W1S : Shape := ⟨2, ![4096, 8]⟩
abbrev B1S : Shape := ⟨1, ![4096]⟩
abbrev W2S : Shape := ⟨2, ![1024, 4096]⟩
abbrev B2S : Shape := ⟨1, ![1024]⟩

/-- Feature `q` of a position with channels `u`: `cos u_q · cos θ_q`. -/
def feature (u : Fin 8 → EReal) (ang : Fin 8 → EReal) (q : Fin 8) : EReal :=
  Ideal.cos (u q) * ang q

/-- Hidden unit `f`: the affine form of the features through row `f` of `W1`, clamped below at zero. -/
def hiddenUnit (u ang : Fin 8 → EReal) (W1 : W1S.Idx → EReal) (b1 : B1S.Idx → EReal) (f : Fin 4096) : EReal :=
  max ((∑ q : Fin 8, feature u ang q * W1 (ix2 f q)) + b1 (ix1 f)) (Ideal.ofBits .f32 0x00000000#32)

/-- Output channel `e` of one position: the affine form of the hidden units through row `e` of `W2`. -/
def tokenOut (u ang : Fin 8 → EReal) (W1 : W1S.Idx → EReal) (b1 : B1S.Idx → EReal) (W2 : W2S.Idx → EReal)
    (b2 : B2S.Idx → EReal) (e : Fin 1024) : EReal :=
  (∑ f : Fin 4096, hiddenUnit u ang W1 b1 f * W2 (ix2 e f)) + b2 (ix1 e)

/-- `tokenOut` depends on its arguments only through their values. -/
theorem tokenOut_congr {u u' ang ang' : Fin 8 → EReal} {W1 W1' : W1S.Idx → EReal} {b1 b1' : B1S.Idx → EReal}
    {W2 W2' : W2S.Idx → EReal} {b2 b2' : B2S.Idx → EReal} {e e' : Fin 1024}
    (hu : u = u') (ha : ang = ang') (hW1 : W1 = W1') (hb1 : b1 = b1') (hW2 : W2 = W2') (hb2 : b2 = b2') (he : e = e') :
    tokenOut u ang W1 b1 W2 b2 e = tokenOut u' ang' W1' b1' W2' b2' e' := by
  subst hu ha hW1 hb1 hW2 hb2 he; rfl

/-- The first eight channels of position `(b, s)` of the input. -/
def channels (x : XS.Idx → EReal) (b : Fin 8) (s : Fin 2048) : Fin 8 → EReal :=
  fun q => x (ix3 b s (Fin.castLE (by decide) q))

/-- The cosines of the angles. -/
def cosAngles (θ : AngS.Idx → EReal) : Fin 8 → EReal := fun q => Ideal.cos (θ (ix1 q))

/-- The whole result: every position's output channels. -/
def network (x : XS.Idx → EReal) (θ : AngS.Idx → EReal) (W1 : W1S.Idx → EReal) (b1 : B1S.Idx → EReal)
    (W2 : W2S.Idx → EReal) (b2 : B2S.Idx → EReal) : XS.Idx → EReal :=
  fun i => tokenOut (channels x (i 0) (i 1)) (cosAngles θ) W1 b1 W2 b2 (i 2)

end Cert.CosMlp

end
-- ==== Proof.RefNetwork.lean ====
/-
  The reference, read index by index, is the network of the specification. Its operations in order: the first
  eight channels of every position, their cosines, the cosines of the angles spread over the positions, the
  product (the features); the contraction of the features with the rows of `W1` plus `b1`, clamped at zero
  (the hidden layer); the contraction of the hidden layer with the rows of `W2` plus `b2`. Each contraction is
  a finite sum over the contracted axis, each spreading reads its operand at the trailing coordinates, so at
  output index `(b, s, e)` the result is `tokenOut` of position `(b, s)`'s channels at channel `e`.
-/
import proofs.«143221_j65481071407547_1_alg».proof.Proof.Gen.ReferenceIdeal.Read
import proofs.«143221_j65481071407547_1_alg».proof.Proof.Spec

noncomputable section

namespace Cert.CosMlp.Reference

open Cert.ReferenceIdeal Cert.ReferenceIdeal.Read Idealize.ShloMosaic Idealize.ShloMosaic.ValueIdx Cert.CosMlp

variable (x : XS.Idx → EReal) (θ : AngS.Idx → EReal) (W1 : W1S.Idx → EReal) (b1 : B1S.Idx → EReal)
  (W2 : W2S.Idx → EReal) (b2 : B2S.Idx → EReal)

/-! ## Where each stage reads its operands, in coordinates -/

/-- The feature at `(b, s, q)` reads the input at `(b, s, q)`, -/
theorem input_at (b : Fin 8) (s : Fin 2048) (f : Fin 4096) (q : Fin 8) :
    idx_main_v0 (lidx_main_v6 (ix3 b s f) q) = ix3 b s (Fin.castLE (by decide) q) := by
  funext a; match a with | ⟨0, _⟩ => rfl | ⟨1, _⟩ => rfl | ⟨2, _⟩ => rfl
/-- and the angle at `q`. -/
theorem angle_at (b : Fin 8) (s : Fin 2048) (f : Fin 4096) (q : Fin 8) :
    idx_main_v3 (idx_main_v4 (lidx_main_v6 (ix3 b s f) q)) = ix1 q := by
  funext a; match a with | ⟨0, _⟩ => rfl
/-- Hidden unit `f` reads row `f` of `W1` -/
theorem w1_at (b : Fin 8) (s : Fin 2048) (f : Fin 4096) (q : Fin 8) :
    ridx_main_v6 (ix3 b s f) q = ix2 f q := by
  funext a; match a with | ⟨0, _⟩ => rfl | ⟨1, _⟩ => rfl
/-- and entry `f` of `b1`. -/
theorem b1_at (b : Fin 8) (s : Fin 2048) (f : Fin 4096) :
    idx_main_v7 (idx_main_v8 (ix3 b s f)) = ix1 f := by
  funext a; match a with | ⟨0, _⟩ => rfl
/-- Output channel `e` of position `(b, s)` reads that position's hidden units, -/
theorem hidden_at (i : S8x2048x1024.Idx) (f : Fin 4096) : lidx_main_v11 i f = ix3 (i 0) (i 1) f := by
  funext a; match a with | ⟨0, _⟩ => rfl | ⟨1, _⟩ => rfl | ⟨2, _⟩ => rfl
/-- row `e` of `W2` -/
theorem w2_at (i : S8x2048x1024.Idx) (f : Fin 4096) : ridx_main_v11 i f = ix2 (i 2) f := by
  funext a; match a with | ⟨0, _⟩ => rfl | ⟨1, _⟩ => rfl
/-- and entry `e` of `b2`. -/
theorem b2_at (i : S8x2048x1024.Idx) : idx_main_v12 (idx_main_v13 i) = ix1 (i 2) := by
  funext a; match a with | ⟨0, _⟩ => rfl

/-! ## The two layers -/

/-- The reference's hidden layer at `(b, s, f)` is hidden unit `f` of position `(b, s)`. -/
theorem hidden_eq (b : Fin 8) (s : Fin 2048) (f : Fin 4096) :
    val_main_v10 (F := Ideal) x θ W1 b1 (ix3 b s f) = hiddenUnit (channels x b s) (cosAngles θ) W1 b1 f := by
  rw [val_main_v10_apply, val_main_v9_apply, val_main_v6_apply, val_main_v8_apply, val_main_v7_apply,
    val_main_call0_v0_apply, val_main_call0_cst_apply]
  simp only [val_main_v5_apply, val_main_v1_apply, val_main_v0_apply, val_main_v4_apply, val_main_v3_apply,
    val_main_v2_apply, input_at, angle_at, w1_at, b1_at]
  rfl

/-- The reference's result is the network. -/
theorem result_eq : val_main_v14 (F := Ideal) x θ W1 b1 W2 b2 = network x θ W1 b1 W2 b2 := by
  funext i
  rw [val_main_v14_apply, val_main_v11_apply, val_main_v13_apply, val_main_v12_apply]
  simp only [hidden_at, w2_at, b2_at]
  show (∑ f : Fin 4096, val_main_v10 (F := Ideal) x θ W1 b1 (ix3 (i 0) (i 1) f) * W2 (ix2 (i 2) f)) + b2 (ix1 (i 2))
    = (∑ f : Fin 4096, hiddenUnit (channels x (i 0) (i 1)) (cosAngles θ) W1 b1 f * W2 (ix2 (i 2) f)) + b2 (ix1 (i 2))
  refine congrArg (· + b2 (ix1 (i 2))) (Finset.sum_congr rfl fun f _ => ?_)
  exact congrArg (· * W2 (ix2 (i 2) f)) (hidden_eq x θ W1 b1 (i 0) (i 1) f)

end Cert.CosMlp.Reference

end
-- ==== Proof.KernelBody.lean ====
/-
  What one grid point stores, at an index. The body loads a block of 512 positions' eight channels, the row of
  the angles' cosines, both weight matrices and both bias rows whole, and stores a 512 × 1024 block. Entry
  `(p, e)` of that block is `tokenOut` of row `p` of the loaded channels at channel `e`: the two matrix
  products accumulate into a zero splat, so each is the plain sum over its contracted axis (eight features,
  then 4096 hidden units) of the products of entries `(p, k)` and `(row, k)`; the three row broadcasts read
  their one row; the shape casts are between equal shapes; the changes of float format are the identity on
  the extended reals.
-/
import proofs.«143221_j65481071407547_1_alg».proof.Proof.Gen.KernelIdeal.Skeleton
import proofs.«143221_j65481071407547_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.CosMlp.Body

open Cert.KernelIdeal Cert.KernelIdeal.Gen Idealize.ShloMosaic Idealize.ShloMosaic.ValueIdx Cert.CosMlp

/-! ## The first product: features against the rows of `W1` -/

theorem feat_lhs_0 (i : S512x4096.Idx) (q : dot_S512x8_S4096x8_S512x4096_1_1_0_0_n_n.contr.Idx) :
    (dot_S512x8_S4096x8_S512x4096_1_1_0_0_n_n.lhsIdx i q 0).val = (i 0).val := by
  unfold DotDims.lhsIdx
  rw [dif_neg (show ¬(0 : Fin S512x8.rank) ∈ dot_S512x8_S4096x8_S512x4096_1_1_0_0_n_n.lhsBatch by decide), dif_pos (show (0 : Fin S512x8.rank) ∈ dot_S512x8_S4096x8_S512x4096_1_1_0_0_n_n.lhsNonContracting by decide)]
  rfl
theorem feat_lhs_1 (i : S512x4096.Idx) (q : dot_S512x8_S4096x8_S512x4096_1_1_0_0_n_n.contr.Idx) :
    (dot_S512x8_S4096x8_S512x4096_1_1_0_0_n_n.lhsIdx i q 1).val = (q ⟨0, by decide⟩).val :=
  dot_S512x8_S4096x8_S512x4096_1_1_0_0_n_n.lhsIdx_val_of_single rfl i q
theorem feat_rhs_0 (i : S512x4096.Idx) (q : dot_S512x8_S4096x8_S512x4096_1_1_0_0_n_n.contr.Idx) :
    (dot_S512x8_S4096x8_S512x4096_1_1_0_0_n_n.rhsIdx i q 0).val = (i 1).val := by
  unfold DotDims.rhsIdx
  rw [dif_neg (show ¬(0 : Fin S4096x8.rank) ∈ dot_S512x8_S4096x8_S512x4096_1_1_0_0_n_n.rhsBatch by decide), dif_pos (show (0 : Fin S4096x8.rank) ∈ dot_S512x8_S4096x8_S512x4096_1_1_0_0_n_n.rhsNonContracting by decide)]
  rfl
theorem feat_rhs_1 (i : S512x4096.Idx) (q : dot_S512x8_S4096x8_S512x4096_1_1_0_0_n_n.contr.Idx) :
    (dot_S512x8_S4096x8_S512x4096_1_1_0_0_n_n.rhsIdx i q 1).val = (q ⟨0, by decide⟩).val :=
  dot_S512x8_S4096x8_S512x4096_1_1_0_0_n_n.rhsIdx_val_of_single rfl i q

/-- Entry `(p, f)` of the first product is `Σ_q a[p, q] · w[f, q]`. -/
theorem first_product (a : FVec Ideal S512x8 .bf16) (w : FVec Ideal S4096x8 .bf16) (p : Fin 512) (f : Fin 4096) :
    matmul dot_S512x8_S4096x8_S512x4096_1_1_0_0_n_n none a w (constant (F := Ideal) S512x4096 .f32 0x00000000#32) (ix2 p f)
      = ∑ q : Fin 8, a (ix2 p q) * w (ix2 f q) := by
  simp only [matmul]
  rw [Ideal.matmul_constant_zero_apply, ← Equiv.sum_comp (contrEquiv1 dot_S512x8_S4096x8_S512x4096_1_1_0_0_n_n 8 rfl rfl).symm]
  refine Finset.sum_congr rfl fun k _ => ?_
  have hk := contrEquiv1_symm_val dot_S512x8_S4096x8_S512x4096_1_1_0_0_n_n 8 rfl rfl k
  have el : dot_S512x8_S4096x8_S512x4096_1_1_0_0_n_n.lhsIdx (ix2 p f) ((contrEquiv1 dot_S512x8_S4096x8_S512x4096_1_1_0_0_n_n 8 rfl rfl).symm k) = ix2 p k := funext fun ax => Fin.ext (by
    match ax with
    | ⟨0, _⟩ => exact feat_lhs_0 _ _
    | ⟨1, _⟩ => exact (feat_lhs_1 _ _).trans hk)
  have er : dot_S512x8_S4096x8_S512x4096_1_1_0_0_n_n.rhsIdx (ix2 p f) ((contrEquiv1 dot_S512x8_S4096x8_S512x4096_1_1_0_0_n_n 8 rfl rfl).symm k) = ix2 f k := funext fun ax => Fin.ext (by
    match ax with
    | ⟨0, _⟩ => exact feat_rhs_0 _ _
    | ⟨1, _⟩ => exact (feat_rhs_1 _ _).trans hk)
  rw [el, er]

/-! ## The second product: hidden units against the rows of `W2` -/

theorem hid_lhs_0 (i : S512x1024.Idx) (q : dot_S512x4096_S1024x4096_S512x1024_1_1_0_0_n_n.contr.Idx) :
    (dot_S512x4096_S1024x4096_S512x1024_1_1_0_0_n_n.lhsIdx i q 0).val = (i 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
theorem hid_lhs_1 (i : S512x1024.Idx) (q : dot_S512x4096_S1024x4096_S512x1024_1_1_0_0_n_n.contr.Idx) :
    (dot_S512x4096_S1024x4096_S512x1024_1_1_0_0_n_n.lhsIdx i q 1).val = (q ⟨0, by decide⟩).val :=
  dot_S512x4096_S1024x4096_S512x1024_1_1_0_0_n_n.lhsIdx_val_of_single rfl i q
theorem hid_rhs_0 (i : S512x1024.Idx) (q : dot_S512x4096_S1024x4096_S512x1024_1_1_0_0_n_n.contr.Idx) :
    (dot_S512x4096_S1024x4096_S512x1024_1_1_0_0_n_n.rhsIdx i q 0).val = (i 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
theorem hid_rhs_1 (i : S512x1024.Idx) (q : dot_S512x4096_S1024x4096_S512x1024_1_1_0_0_n_n.contr.Idx) :
    (dot_S512x4096_S1024x4096_S512x1024_1_1_0_0_n_n.rhsIdx i q 1).val = (q ⟨0, by decide⟩).val :=
  dot_S512x4096_S1024x4096_S512x1024_1_1_0_0_n_n.rhsIdx_val_of_single rfl i q

/-- Entry `(p, e)` of the second product is `Σ_f h[p, f] · w[e, f]`. -/
theorem second_product (h : FVec Ideal S512x4096 .bf16) (w : FVec Ideal S1024x4096 .bf16) (p : Fin 512) (e : Fin 1024) :
    matmul dot_S512x4096_S1024x4096_S512x1024_1_1_0_0_n_n none h w (constant (F := Ideal) S512x1024 .f32 0x00000000#32) (ix2 p e)
      = ∑ f : Fin 4096, h (ix2 p f) * w (ix2 e f) := by
  simp only [matmul]
  rw [Ideal.matmul_constant_zero_apply, ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx (ix2 p e) ((contrEquiv1 dot_S512x4096_S1024x4096_S512x1024_1_1_0_0_n_n 4096 rfl rfl).symm k) = ix2 p k := funext fun ax => Fin.ext (by
    match ax with
    | ⟨0, _⟩ => exact hid_lhs_0 _ _
    | ⟨1, _⟩ => exact (hid_lhs_1 _ _).trans hk)
  have er : dot_S512x4096_S1024x4096_S512x1024_1_1_0_0_n_n.rhsIdx (ix2 p e) ((contrEquiv1 dot_S512x4096_S1024x4096_S512x1024_1_1_0_0_n_n 4096 rfl rfl).symm k) = ix2 e k := funext fun ax => Fin.ext (by
    match ax with
    | ⟨0, _⟩ => exact hid_rhs_0 _ _
    | ⟨1, _⟩ => exact (hid_rhs_1 _ _).trans hk)
  rw [el, er]

/-! ## The stored value -/

/-- Entry `(p, e)` of the block a grid point stores is `tokenOut` of row `p` of the loaded channels: the features
    use the loaded row of cosines, the layers the loaded weights and bias rows. -/
theorem stored_apply (v0 : Vec Ideal S512x8 .f32) (v2 : Vec Ideal S1x8 .f32) (v8 : Vec Ideal S4096x8 .bf16)
    (v11 : Vec Ideal S1x4096 .f32) (v18 : Vec Ideal S1024x4096 .bf16) (v21 : Vec Ideal S1x1024 .f32)
    (p : Fin 512) (e : Fin 1024) :
    k0_pay1 (F := Ideal) v0 v2 v8 v11 v18 v21 (ix2 p e)
      = tokenOut (fun q => v0 (ix2 p q)) (fun q => v2 (ix2 (0 : Fin 1) q)) v8 (fun j => v11 (ix2 (0 : Fin 1) (j 0)))
          v18 (fun j => v21 (ix2 (0 : Fin 1) (j 0))) e := by
  unfold k0_pay1
  simp only [addf_apply, second_product, first_product, truncf_apply, maximumf_apply, mulf_apply,
    shapeCast_self, broadcastTo_1b_ab_apply, broadcast_apply]
  rfl

end Cert.CosMlp.Body

end
-- ==== Proof.KernelBlocks.lean ====
/-
  From blocks to the array. The region's result is a 16384 × 1024 array written in 32 blocks of 512 rows; the
  positions' channels move with it (block `t` of both at grid point `t`), while the weights, the bias rows and
  the row of cosines are fetched whole at block index 0. So what point `t` writes back is block `t` of ONE
  function of the arrays the region finds: row `r`, channel `e` is `tokenOut` of row `r` of the channels array.
  Row `r` lies in block `r / 512`, every point writes back, so the blocks cover the array and the array after
  the region is that function.
-/
import proofs.«143221_j65481071407547_1_alg».proof.Proof.Gen.KernelIdeal.Frame
import proofs.«143221_j65481071407547_1_alg».proof.Proof.KernelBody
import Idealize.ShloMosaic.Lib.Pipeline.Value

set_option maxRecDepth 16384

noncomputable section

namespace Cert.CosMlp.Blocks

open Cert.KernelIdeal Cert.KernelIdeal.Gen Idealize.ShloMosaic Idealize.ShloMosaic.TcCoe Idealize.SL.Sem
open Idealize.ShloMosaic.ValueIdx Cert.CosMlp
open Idealize.ShloMosaic.Pipeline (Dat)

variable (m : (ℓ : Loc nD τ sig) → Buf (Elt Ideal) ℓ) (ρ : Dev nD → PrngReg)

theorem offset_zero : (![0, 0] : Fin 2 → Nat) = fun _ => 0 := funext fun a => by fin_cases a <;> rfl

/-! ## The arrays the region finds, at their literal types -/

abbrev chanArr (c : Dev nD) : S16384x8.Idx → EReal := V m c main_v1
abbrev cosRow (c : Dev nD) : S1x8.Idx → EReal := V m c main_v3
abbrev w1Arr (c : Dev nD) : S4096x8.Idx → EReal := V m c main_v4
abbrev b1Row (c : Dev nD) : S1x4096.Idx → EReal := V m c main_v6
abbrev w2Arr (c : Dev nD) : S1024x4096.Idx → EReal := V m c main_v5
abbrev b2Row (c : Dev nD) : S1x1024.Idx → EReal := V m c main_v7

/-- The region's result as one function of those arrays: row `r`, channel `e`. -/
def rows (c : Dev nD) : S16384x1024.Idx → EReal := fun i =>
  tokenOut (fun q => chanArr m c (ix2 (i 0) q)) (fun q => cosRow m c (ix2 (0 : Fin 1) q)) (w1Arr m c)
    (fun j => b1Row m c (ix2 (0 : Fin 1) (j 0))) (w2Arr m c) (fun j => b2Row m c (ix2 (0 : Fin 1) (j 0))) (i 1)

/-! ## The block index maps over the grid -/

/-- The channels' block moves with the result's on the row axis; every other block index is zero. -/
theorem idx_facts : ∀ t : Fin cfg0.N,
    win0_0.index t (0 : Fin 2) = win0_6.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 :=
  (by decide +kernel : ∀ t : Fin grid0.N, _)

/-- Every block of rows is some point's. -/
theorem idx_onto : ∀ q0 : Fin 32, ∃ t : Fin cfg0.N, win0_6.index t = ![q0.val, 0] :=
  (by decide +kernel : ∀ q0 : Fin 32, ∃ t : Fin grid0.N, win0_6.index t = ![q0.val, 0])

/-! ## Each input block, read off its array -/

/-- Row `p` of the channels' block at point `t` is the array's row at the result block's row `p`. -/
theorem chan_block (c : Dev nD) (t : Fin cfg0.N) (p : Fin 512) (e : Fin 1024) (q : Fin 8) :
    iblk m c 0 t (ix2 p q) = chanArr m c (ix2 ((((cfg0.win 6).blk t).view.emb (ix2 p e)) 0) q) := by
  obtain ⟨e00, e01, -⟩ := idx_facts t
  show V m c main_v1 (((cfg0.win 0).blk t).view.emb (ix2 p q)) = V m c main_v1 _
  refine congrArg _ (funext fun a => Fin.ext ?_)
  match a with
  | ⟨0, _⟩ => show win0_0.index t (0 : Fin 2) * 512 + 1 * p.val = win0_6.index t (0 : Fin 2) * 512 + 1 * p.val; omega
  | ⟨1, _⟩ => show win0_0.index t (1 : Fin 2) * 8 + 1 * q.val = q.val; omega

/-- The weights, bias rows and cosines are fetched whole. -/
theorem w1_block (c : Dev nD) (t : Fin cfg0.N) : iblk m c 1 t = w1Arr m c := by
  obtain ⟨-, -, e10, e11, -⟩ := idx_facts t
  funext y
  show V m c main_v4 (((cfg0.win 1).blk t).view.emb y) = V m c main_v4 y
  refine congrArg _ (funext fun a => Fin.ext ?_)
  match a with
  | ⟨0, _⟩ => show win0_1.index t (0 : Fin 2) * 4096 + 1 * (y 0).val = (y 0).val; omega
  | ⟨1, _⟩ => show win0_1.index t (1 : Fin 2) * 8 + 1 * (y 1).val = (y 1).val; omega
theorem b1_block (c : Dev nD) (t : Fin cfg0.N) : iblk m c 2 t = b1Row m c := by
  obtain ⟨-, -, -, -, e20, e21, -⟩ := idx_facts t
  funext y
  show V m c main_v6 (((cfg0.win 2).blk t).view.emb y) = V m c main_v6 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 4096 + 1 * (y 1).val = (y 1).val; omega
theorem w2_block (c : Dev nD) (t : Fin cfg0.N) : iblk m c 3 t = w2Arr m c := by
  obtain ⟨-, -, -, -, -, -, e30, e31, -⟩ := idx_facts t
  funext y
  show V m c main_v5 (((cfg0.win 3).blk t).view.emb y) = V m c main_v5 y
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 4096 + 1 * (y 1).val = (y 1).val; omega
theorem b2_block (c : Dev nD) (t : Fin cfg0.N) : iblk m c 4 t = b2Row m c := by
  obtain ⟨-, -, -, -, -, -, -, -, e40, e41, -⟩ := idx_facts t
  funext y
  show V m c main_v7 (((cfg0.win 4).blk t).view.emb y) = V m c main_v7 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega
theorem cos_block (c : Dev nD) (t : Fin cfg0.N) : iblk m c 5 t = cosRow m c := by
  obtain ⟨-, -, -, -, -, -, -, -, -, -, e50, e51, -⟩ := idx_facts t
  funext y
  show V m c main_v3 (((cfg0.win 5).blk t).view.emb y) = V m c main_v3 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 8 + 1 * (y 1).val = (y 1).val; omega

/-- Channel `e` of the result's block is channel `e` of the array: the block spans all 1024 channels. -/
theorem channel_of_block (t : Fin cfg0.N) (p : Fin 512) (e : Fin 1024) :
    e = (((cfg0.win 6).blk t).view.emb (ix2 p e)) 1 := by
  obtain ⟨-, -, -, -, -, -, -, -, -, -, -, -, e61⟩ := idx_facts t
  refine Fin.ext ?_
  show e.val = win0_6.index t (1 : Fin 2) * 1024 + 1 * e.val
  omega

/-! ## What a point writes back -/

/-- Point `t` writes back block `t` of `rows`. -/
theorem flushed_eq (c : Dev nD) (t : Fin cfg0.N) :
    (dats m 0 c).flushed 6 t = ((cfg0.win 6).blk t).view.read (Elt Ideal) (rows m c) := by
  show (cfg0.win 6).cut (grid0.coords t) ((dats m 0 c).after 6 t) = _
  rw [after0_6]
  unfold out0_6
  rw [View.canon_unit_zero offset_zero]
  simp only [View.ld_unit_zero (S := S512x8) offset_zero, View.ld_unit_zero (S := S1x8) offset_zero,
    View.ld_unit_zero (S := S4096x8) offset_zero, View.ld_unit_zero (S := S1x4096) offset_zero,
    View.ld_unit_zero (S := S1024x4096) offset_zero, View.ld_unit_zero (S := S1x1024) offset_zero]
  funext j
  obtain ⟨p, e, rfl⟩ : ∃ (p : Fin 512) (e : Fin 1024), j = ix2 p e := ⟨j 0, j 1, eq_ix2 j⟩
  show k0_pay1 (F := Ideal) (iblk m c 0 t) (iblk m c 5 t) (iblk m c 1 t) (iblk m c 2 t) (iblk m c 3 t) (iblk m c 4 t) (ix2 p e)
    = rows m c (((cfg0.win 6).blk t).view.emb (ix2 p e))
  refine (Body.stored_apply (iblk m c 0 t) (iblk m c 5 t) (iblk m c 1 t) (iblk m c 2 t) (iblk m c 3 t) (iblk m c 4 t) p e).trans ?_
  unfold rows
  exact tokenOut_congr (funext fun q => chan_block m c t p e q)
    (funext fun q => congrFun (cos_block m c t) (ix2 (0 : Fin 1) q))
    (w1_block m c t)
    (funext fun j => congrFun (b1_block m c t) (ix2 (0 : Fin 1) (j 0)))
    (w2_block m c t)
    (funext fun j => congrFun (b2_block m c t) (ix2 (0 : Fin 1) (j 0)))
    (channel_of_block t p e)

/-! ## The cover, and the array after the region -/

/-- An index is in point `t`'s block iff each coordinate is in the block's range. -/
theorem mem_block (t : Fin cfg0.N) (i : S16384x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v8).slice (win0_6.rect t)).set ↔ _
  rw [View.set_slice_whole, Rect.mem_set_unit]
  exact Iff.rfl

/-- Row `r` is in the block of point `r / 512`, and every point writes back. -/
theorem covered (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  obtain ⟨t, ht⟩ := idx_onto ⟨(i 0).val / 512, by omega⟩
  have q0 : win0_6.index t (0 : Fin 2) = (i 0).val / 512 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- The region's result array after the run is `rows`. -/
theorem result_array (c : Dev nD) : (dats m 0 c).arrAt 6 cfg0.N = rows m c :=
  (dats m 0 c).arrAt_eq_of_cover 6 (rows m c) (fun t _ => flushed_eq m c t) (covered)

end Cert.CosMlp.Blocks

end
-- ==== Proof.KernelHost.lean ====
/-
  The host lines before the region, read at an index. The channels array is the input's first eight channels
  laid out one position per row: row `r` is position `(r / 2048, r mod 2048)`. The row of cosines is `cos θ` as
  a `1 × 8` row; the two weight arrays are `W1` and `W2` themselves (the change of float format is the identity
  on the extended reals); the two bias rows are `b1` and `b2` as `1 × n` rows. Hence the region's result,
  row `r` and channel `e`, is the network's value at position `(r / 2048, r mod 2048)` and channel `e`.
-/
import proofs.«143221_j65481071407547_1_alg».proof.Proof.KernelBlocks
import Idealize.ShloMosaic.Lib.StableHlo.Run
import Idealize.ShloMosaic.Lib.ValueLayout

noncomputable section

namespace Cert.CosMlp.Entry

open Cert.KernelIdeal Cert.KernelIdeal.Gen Idealize.ShloMosaic Idealize.ShloMosaic.TcCoe Idealize.SL.Sem
open Idealize.ShloMosaic.StableHlo Idealize.ShloMosaic.ValueIdx Cert.CosMlp

variable (m : (ℓ : Loc nD τ sig) → Buf (Elt Ideal) ℓ)

/-- The six arguments as launched, at their literal types. -/
abbrev xArg (c : Dev nD) : S8x2048x1024.Idx → EReal := m ((c : Thread nD τ).loc main_arg0)
abbrev angArg (c : Dev nD) : S8.Idx → EReal := m ((c : Thread nD τ).loc main_arg1)
abbrev w1Arg (c : Dev nD) : S4096x8.Idx → EReal := m ((c : Thread nD τ).loc main_arg2)
abbrev b1Arg (c : Dev nD) : S4096.Idx → EReal := m ((c : Thread nD τ).loc main_arg3)
abbrev w2Arg (c : Dev nD) : S1024x4096.Idx → EReal := m ((c : Thread nD τ).loc main_arg4)
abbrev b2Arg (c : Dev nD) : S1024.Idx → EReal := m ((c : Thread nD τ).loc main_arg5)

/-- Row `r` of the channels array is position `(rowBatch r, rowSeq r)`. -/
def rowBatch (r : Fin 16384) : Fin 8 := ⟨r.val / 2048, by have := r.isLt; omega⟩
def rowSeq (r : Fin 16384) : Fin 2048 := ⟨r.val % 2048, Nat.mod_lt _ (by decide)⟩

/-! ## Each array the region finds, as the host lines' term -/

theorem chanArr_eq (c : Dev nD) : Blocks.chanArr m c
    = shapeCast S16384x8 (extractStridedSlice S8x2048x8 ![0, 0, 0] (xArg m c) slices_S8x2048x1024_S8x2048x8_0_0_0) shapeCasts_S8x2048x8_S16384x8 := by
  show StableHlo.after hostOps0 (fun b => m (c, b)) (Proc.devRef .tc main_v1) = _
  after_results; rfl
theorem cosRow_eq (c : Dev nD) : Blocks.cosRow m c
    = shapeCast S1x8 (Host.cos (F := Ideal) (φ := .f32) (angArg m c)) shapeCasts_S8_S1x8 := by
  show StableHlo.after hostOps0 (fun b => m (c, b)) (Proc.devRef .tc main_v3) = _
  after_results; rfl
theorem w1Arr_eq (c : Dev nD) : Blocks.w1Arr m c = w1Arg m c := by
  show StableHlo.after hostOps0 (fun b => m (c, b)) (Proc.devRef .tc main_v4) = _
  after_results; rfl
theorem w2Arr_eq (c : Dev nD) : Blocks.w2Arr m c = w2Arg m c := by
  show StableHlo.after hostOps0 (fun b => m (c, b)) (Proc.devRef .tc main_v5) = _
  after_results; rfl
theorem b1Row_eq (c : Dev nD) : Blocks.b1Row m c = shapeCast S1x4096 (b1Arg m c) shapeCasts_S4096_S1x4096 := by
  show StableHlo.after hostOps0 (fun b => m (c, b)) (Proc.devRef .tc main_v6) = _
  after_results; rfl
theorem b2Row_eq (c : Dev nD) : Blocks.b2Row m c = shapeCast S1x1024 (b2Arg m c) shapeCasts_S1024_S1x1024 := by
  show StableHlo.after hostOps0 (fun b => m (c, b)) (Proc.devRef .tc main_v7) = _
  after_results; rfl

/-! ## Read at an index -/

/-- Row `r` of the channels array is the first eight channels of its position. -/
theorem chan_row (c : Dev nD) (r : Fin 16384) :
    (fun q : Fin 8 => Blocks.chanArr m c (ix2 r q)) = channels (xArg m c) (rowBatch r) (rowSeq r) := by
  funext q
  have hr := r.isLt
  rw [chanArr_eq]
  refine (shapeCast_apply _ _ (ix2 r q) (ix3 (rowBatch r) (rowSeq r) q) ?_).trans ?_
  · rw [Shape.rowMajor_val_three, Shape.rowMajor_val_two]
    show (r.val / 2048 * 2048 + r.val % 2048) * 8 + q.val = r.val * 8 + q.val
    omega
  · exact extractStridedSlice_apply ![0, 0, 0] _ slices_S8x2048x1024_S8x2048x8_0_0_0 (ix3 (rowBatch r) (rowSeq r) q)
      (ix3 (rowBatch r) (rowSeq r) (Fin.castLE (by decide) q)) (fun a => match a with
      | ⟨0, _⟩ => by show r.val / 2048 = 0 + r.val / 2048; omega
      | ⟨1, _⟩ => by show r.val % 2048 = 0 + r.val % 2048; omega
      | ⟨2, _⟩ => by show q.val = 0 + q.val; omega)

/-- The row of cosines holds `cos θ_q`. -/
theorem cos_row (c : Dev nD) : (fun q : Fin 8 => Blocks.cosRow m c (ix2 (0 : Fin 1) q)) = cosAngles (angArg m c) := by
  funext q
  rw [cosRow_eq]
  exact shapeCast_a_1a_apply (Host.cos (F := Ideal) (φ := .f32) (angArg m c)) shapeCasts_S8_S1x8 0 q

/-- The bias rows hold `b1` and `b2`. -/
theorem b1_row (c : Dev nD) : (fun j : B1S.Idx => Blocks.b1Row m c (ix2 (0 : Fin 1) (j 0))) = b1Arg m c := by
  funext j
  obtain ⟨f, rfl⟩ : ∃ f : Fin 4096, j = ix1 f := ⟨j 0, eq_ix1 j⟩
  rw [b1Row_eq]
  exact shapeCast_a_1a_apply (b1Arg m c) shapeCasts_S4096_S1x4096 0 f
theorem b2_row (c : Dev nD) : (fun j : B2S.Idx => Blocks.b2Row m c (ix2 (0 : Fin 1) (j 0))) = b2Arg m c := by
  funext j
  obtain ⟨e, rfl⟩ : ∃ e : Fin 1024, j = ix1 e := ⟨j 0, eq_ix1 j⟩
  rw [b2Row_eq]
  exact shapeCast_a_1a_apply (b2Arg m c) shapeCasts_S1024_S1x1024 0 e

/-- The region's result at row `r`, channel `e` is the network at position `(r / 2048, r mod 2048)`, channel `e`. -/
theorem rows_apply (c : Dev nD) (r : Fin 16384) (e : Fin 1024) :
    Blocks.rows m c (ix2 r e)
      = network (xArg m c) (angArg m c) (w1Arg m c) (b1Arg m c) (w2Arg m c) (b2Arg m c) (ix3 (rowBatch r) (rowSeq r) e) := by
  unfold Blocks.rows network
  exact tokenOut_congr (chan_row m c r) (cos_row m c) (w1Arr_eq m c) (b1_row m c) (w2Arr_eq m c) (b2_row m c) rfl

end Cert.CosMlp.Entry

end
-- ==== Proof.KernelRun.lean ====
/-
  The idealized kernel's run, with its result named. After the region one host line reshapes the 16384 × 1024
  array to 8 × 2048 × 1024: entry `(b, s, e)` is row `b · 2048 + s`, channel `e`, and that row is position
  `(b, s)`, so the result is the network of the launch arguments; the arguments end as launched.
-/
import proofs.«143221_j65481071407547_1_alg».proof.Proof.KernelHost
import Idealize.ShloMosaic.Lib.StableHlo.Run

noncomputable section

namespace Cert.CosMlp.KernelRun

open Cert.KernelIdeal Cert.KernelIdeal.Gen Idealize.ShloMosaic Idealize.ShloMosaic.TcCoe Idealize.SL.Sem
open Idealize.ShloMosaic.StableHlo Idealize.ShloMosaic.ValueIdx Cert.CosMlp Cert.CosMlp.Entry

variable (m : (ℓ : Loc nD τ sig) → Buf (Elt Ideal) ℓ) (ρ : Dev nD → PrngReg)

/-- The row of position `(b, s)`. -/
def rowOf (b : Fin 8) (s : Fin 2048) : Fin 16384 := ⟨b.val * 2048 + s.val, by have := b.isLt; have := s.isLt; omega⟩

theorem rowBatch_rowOf (b : Fin 8) (s : Fin 2048) : rowBatch (rowOf b s) = b :=
  Fin.ext (by have := s.isLt; show (b.val * 2048 + s.val) / 2048 = b.val; omega)
theorem rowSeq_rowOf (b : Fin 8) (s : Fin 2048) : rowSeq (rowOf b s) = s :=
  Fin.ext (by have := s.isLt; show (b.val * 2048 + s.val) % 2048 = s.val; omega)

/-- The host line after the region reshapes the region's result array. -/
theorem tail_eq (c : Dev nD) :
    (Pipeline.afterTail₀ cfgs (dats m) 0 (V0 m) [hostOps1] c main_v9 : S8x2048x1024.Idx → EReal)
      = shapeCast S8x2048x1024 (Blocks.rows m c) shapeCasts_S16384x1024_S8x2048x1024 := by
  have e : (Pipeline.withArrays (cfgs 0).spec c (V0 m c) (fun w => (dats m 0 c).arrAt w (cfgs 0).N)
      (Proc.devRef .tc main_v8) : S16384x1024.Idx → EReal) = Blocks.rows m c :=
    (Pipeline.withArrays_arr spec0 launch0.win.arr_inj c _ _ 6).trans (Blocks.result_array m c)
  unfold Pipeline.afterTail₀
  show StableHlo.after hostOps1 _ (Proc.devRef .tc main_v9) = _
  after_results
  exact congrArg (fun A : S16384x1024.Idx → EReal => shapeCast S8x2048x1024 A shapeCasts_S16384x1024_S8x2048x1024) e

/-- The reshaped array is the network of the launch arguments. -/
theorem reshaped_eq (c : Dev nD) :
    shapeCast S8x2048x1024 (Blocks.rows m c) shapeCasts_S16384x1024_S8x2048x1024
      = network (xArg m c) (angArg m c) (w1Arg m c) (b1Arg m c) (w2Arg m c) (b2Arg m c) := by
  funext i
  obtain ⟨b, s, e, rfl⟩ : ∃ (b : Fin 8) (s : Fin 2048) (e : Fin 1024), i = ix3 b s e := ⟨i 0, i 1, i 2, eq_ix3 i⟩
  refine (shapeCast_apply _ _ (ix3 b s e) (ix2 (rowOf b s) e) ?_).trans ?_
  · rw [Shape.rowMajor_val_two, Shape.rowMajor_val_three]
    rfl
  · rw [rows_apply, rowBatch_rowOf, rowSeq_rowOf]

/-- Every weakly fair execution of the idealized kernel terminates with its result at the network of the launch
    arguments and the arguments unchanged. -/
theorem run : θ_run defs (onTc (τ := τ) (main (F := Ideal))) ⟨m, fun _ => 0, ρ⟩ fun r => ∀ c : Dev nD,
      r.2.mem ((c : Thread nD τ).loc main_v9) = network (xArg m c) (angArg m c) (w1Arg m c) (b1Arg m c) (w2Arg m c) (b2Arg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v9 (Pipeline.mem_restRefs_of main_v9 (by decide) (by decide))).trans ((tail_eq m c).trans (reshaped_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.CosMlp.KernelRun

end
-- ==== Proof.lean ====
/-
  The kernel and the reference compute one function on the extended reals. Each of the 8 × 2048 positions of the
  input contributes its first eight channels `u`; with the angles `θ` the features are `cos u_q · cos θ_q`, a
  hidden layer of 4096 units is `max (Σ_q feature_q · W1[f, q] + b1[f]) 0`, and the 1024 output channels are
  `Σ_f hidden_f · W2[e, f] + b2[e]` (`CosMlp.network`, Proof/Spec.lean).

  The reference does this over the whole 8 × 2048 × 1024 array with two contractions (Proof/RefNetwork.lean, over
  its generated run and read-at-an-index lemmas). The kernel first lays the positions out as 16384 rows, takes
  the cosines of the angles on the host, and then computes 32 blocks of 512 rows each, every block by two matrix
  products into a zero accumulator with the weights and biases resident (Proof/KernelBody.lean: what a block's
  entry is; Proof/KernelBlocks.lean: the blocks are restrictions of one function of the arrays the region finds
  and cover the result; Proof/KernelHost.lean: those arrays in terms of the arguments), and reshapes the rows back
  to positions (Proof/KernelRun.lean). A matrix product into zero and a host contraction are both the finite sum
  over the contracted axis, a change of float format is the identity, and both cosines are the real cosine, so
  the two results agree entry by entry. Sums on the extended reals are commutative and associative without any
  side condition, and no other law is used: the proof never opens the finiteness precondition.

  The three frames: the kernel's two are the generated class-A frame certificates; the reference's is its
  generated run with the result dropped. The ideal pass rewrote nothing, so `preserves` is `True`.
-/
import proofs.«143221_j65481071407547_1_alg».proof.Defs
import proofs.«143221_j65481071407547_1_alg».proof.Proof.Gen.Kernel
import proofs.«143221_j65481071407547_1_alg».proof.Proof.Gen.Kernel.Skeleton
import proofs.«143221_j65481071407547_1_alg».proof.Proof.Gen.Kernel.Launch
import proofs.«143221_j65481071407547_1_alg».proof.Proof.Gen.Kernel.Points
import proofs.«143221_j65481071407547_1_alg».proof.Proof.Gen.Kernel.Frame
import proofs.«143221_j65481071407547_1_alg».proof.Proof.Gen.KernelIdeal
import proofs.«143221_j65481071407547_1_alg».proof.Proof.Gen.KernelIdeal.Skeleton
import proofs.«143221_j65481071407547_1_alg».proof.Proof.Gen.KernelIdeal.Launch
import proofs.«143221_j65481071407547_1_alg».proof.Proof.Gen.KernelIdeal.Points
import proofs.«143221_j65481071407547_1_alg».proof.Proof.Gen.KernelIdeal.Frame
import proofs.«143221_j65481071407547_1_alg».proof.Proof.Gen.ReferenceIdeal
import proofs.«143221_j65481071407547_1_alg».proof.Proof.Gen.Pre_finite_inputs
import proofs.«143221_j65481071407547_1_alg».proof.Proof.Gen.ReferenceIdeal.Run
import proofs.«143221_j65481071407547_1_alg».proof.Proof.Gen.ReferenceIdeal.Read
import proofs.«143221_j65481071407547_1_alg».proof.Proof.RefNetwork
import proofs.«143221_j65481071407547_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the six arguments, the idealized kernel ends with its result at the network of its
    arguments, and the reference's run ends at its composed term of its own arguments, which is the network of
    them: the same array. -/
theorem algebraic : Cert.algebraic_KernelIdeal_ReferenceIdeal := by
  intro m ρ m' ρ' _ hagree
  refine ⟨_, Cert.CosMlp.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v14_eq _ _ _ _ _ _).trans (Cert.CosMlp.Reference.result_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
